-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_arg5 : FVec F S128x128 .f32) (main_arg6 : FVec F S8192 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S8192x128 .f32) (main_arg1 : FVec F S8192x8192 .f32) (main_arg2 : FVec F S8192x8192 .f32) (main_arg3 : FVec F S128x128 .f32) (main_arg4 : FVec F S8192 .f32) (main_arg5 : FVec F S128x128 .f32) (main_arg6 : FVec F S8192 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S8192 : Shape := ⟨1, ![8192]⟩
abbrev S256x8192 : Shape := ⟨2, ![256, 8192]⟩
abbrev S256x128 : Shape := ⟨2, ![256, 128]⟩
abbrev S8192x1 : Shape := ⟨2, ![8192, 1]⟩
abbrev S_ : Shape := ⟨0, ![]⟩

abbrev nBuf : Space → Nat
  | .hbm => 22
  | .vmem => 20
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192x8192, .f32⟩
  | .hbm, ⟨3, _⟩ => ⟨S128x128, .f32⟩
  | .hbm, ⟨4, _⟩ => ⟨S8192, .f32⟩
  | .hbm, ⟨5, _⟩ => ⟨S128x128, .f32⟩
  | .hbm, ⟨6, _⟩ => ⟨S8192, .f32⟩
  | .hbm, ⟨7, _⟩ => ⟨S8192x128, .f32⟩
  | .hbm, ⟨8, _⟩ => ⟨S8192x128, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S_, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x1, .f32⟩
  | .hbm, ⟨19, _⟩ => ⟨S8192x128, .f32⟩
  | .hbm, ⟨20, _⟩ => ⟨S8192x128, .f32⟩
  | .hbm, ⟨21, _⟩ => ⟨S8192x128, .f32⟩
  | .local _ .vmem, ⟨0, _⟩ => ⟨S256x8192, .f32⟩
  | .local _ .vmem, ⟨1, _⟩ => ⟨S256x8192, .f32⟩
  | .local _ .vmem, ⟨2, _⟩ => ⟨S8192x128, .f32⟩
  | .local _ .vmem, ⟨3, _⟩ => ⟨S256x128, .f32⟩
  | .local _ .vmem, ⟨4, _⟩ => ⟨S256x128, .f32⟩
  | .local _ .vmem, ⟨5, _⟩ => ⟨S256x8192, .f32⟩
  | .local _ .vmem, ⟨6, _⟩ => ⟨S256x8192, .f32⟩
  | .local _ .vmem, ⟨7, _⟩ => ⟨S8192x128, .f32⟩
  | .local _ .vmem, ⟨8, _⟩ => ⟨S256x128, .f32⟩
  | .local _ .vmem, ⟨9, _⟩ => ⟨S256x128, .f32⟩
  | .local _ .vmem, ⟨10, _⟩ => ⟨S256x8192, .f32⟩
  | .local _ .vmem, ⟨11, _⟩ => ⟨S256x8192, .f32⟩
  | .local _ .vmem, ⟨12, _⟩ => ⟨S8192x128, .f32⟩
  | .local _ .vmem, ⟨13, _⟩ => ⟨S256x128, .f32⟩
  | .local _ .vmem, ⟨14, _⟩ => ⟨S256x128, .f32⟩
  | .local _ .vmem, ⟨15, _⟩ => ⟨S256x8192, .f32⟩
  | .local _ .vmem, ⟨16, _⟩ => ⟨S256x8192, .f32⟩
  | .local _ .vmem, ⟨17, _⟩ => ⟨S8192x128, .f32⟩
  | .local _ .vmem, ⟨18, _⟩ => ⟨S256x128, .f32⟩
  | .local _ .vmem, ⟨19, _⟩ => ⟨S256x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x8192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S256x8192_S256x8192_0_0 : ∀ a, (![0, 0] : Fin 2 → Nat) a + S256x8192.size a ≤ S256x8192.size a
  h_S256x8192 : 0 < S256x8192.numel
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S256x128_S256x128_0_0 : ∀ a, (![0, 0] : Fin 2 → Nat) a + S256x128.size a ≤ S256x128.size a
  h_S256x128 : 0 < S256x128.numel
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S_S8192x128 : S_.BroadcastsInDim S8192x128 (![] : Fin 0 → Fin S8192x128.rank)
  dot_S8192x128_S128x128_S8192x128_1_0_0_1_n_n_wf : DotDims.WF S8192x128 S128x128 S8192x128 [1] [0] [0] [1] [] []
  dot_S256x8192_S8192x128_S256x128_1_0_0_1_n_n_wf : DotDims.WF S256x8192 S8192x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S8192x128.size a
  hwx0_2 : ∀ i : grid0.Coords, EltTy.bits .f32 = 32 ∨ (Rect.block (s := S8192x128) S256x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .f32 = 32 ∨ (Rect.block (s := S8192x128) S8192x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S8192x128.size a
  hwx1_2 : ∀ i : grid1.Coords, EltTy.bits .f32 = 32 ∨ (Rect.block (s := S8192x128) S256x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x8192.size a ≤ S8192x8192.size a
  hwx2_0 : ∀ i : grid2.Coords, EltTy.bits .f32 = 32 ∨ (Rect.block (s := S8192x8192) S256x8192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x128.size a ≤ S8192x128.size a
  hwx2_1 : ∀ i : grid2.Coords, EltTy.bits .f32 = 32 ∨ (Rect.block (s := S8192x128) S8192x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S8192x128.size a
  hwx2_2 : ∀ i : grid2.Coords, EltTy.bits .f32 = 32 ∨ (Rect.block (s := S8192x128) S256x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x8192.size a ≤ S8192x8192.size a
  hwx3_0 : ∀ i : grid3.Coords, EltTy.bits .f32 = 32 ∨ (Rect.block (s := S8192x8192) S256x8192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x128.size a ≤ S8192x128.size a
  hwx3_1 : ∀ i : grid3.Coords, EltTy.bits .f32 = 32 ∨ (Rect.block (s := S8192x128) S8192x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S8192x128.size a
  hwx3_2 : ∀ i : grid3.Coords, EltTy.bits .f32 = 32 ∨ (Rect.block (s := S8192x128) S256x128.size (cc3_transform_2 i) (hinb3_2 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf

abbrev win0_0 : Pipeline.Window sig grid0 :=
  Pipeline.Window.ofSpec (Memref.whole main_arg2) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S256x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S256x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S8192x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S256x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S256x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S8192x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v12) S256x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S8192 : Shape := ⟨1, ![8192]⟩
abbrev S8192x1 : Shape := ⟨2, ![8192, 1]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192x8192, .f32⟩
  | .hbm, ⟨3, _⟩ => ⟨S128x128, .f32⟩
  | .hbm, ⟨4, _⟩ => ⟨S8192, .f32⟩
  | .hbm, ⟨5, _⟩ => ⟨S128x128, .f32⟩
  | .hbm, ⟨6, _⟩ => ⟨S8192, .f32⟩
  | .hbm, ⟨7, _⟩ => ⟨S8192x128, .f32⟩
  | .hbm, ⟨8, _⟩ => ⟨S8192x128, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S_, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x1, .f32⟩
  | .hbm, ⟨19, _⟩ => ⟨S8192x128, .f32⟩
  | .hbm, ⟨20, _⟩ => ⟨S8192x128, .f32⟩
  | .hbm, ⟨21, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S_S8192x128 : S_.BroadcastsInDim S8192x128 (![] : Fin 0 → Fin S8192x128.rank)
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.Spec.lean ====
/-
  The one function both programs compute four times: rows of a matrix times columns of another.

  For an `M × K` array `a` and a `K × N` array `x` over the extended reals, `rowsTimes a x` holds at `(p, j)` the
  finite sum `∑ k, a (p, k) · x (k, j)`. The host's matrix product with the plain dimension numbers (contract the
  left operand's axis 1 with the right operand's axis 0, no batch axis) is this function, whatever precision it is
  asked for, and so is a matrix unit's product accumulated into the zero array. Nothing here regroups a sum, so no
  entry needs to be finite.
-/
import Idealize.ShloMosaic.PureOps.Ideal.Laws
import Idealize.ShloMosaic.Lib.ValueIdx
import proofs.«171679_j13383118094871_1_alg».proof.Proof.LibPlainProduct

noncomputable section

open scoped BigOperators

namespace Cert.Spec

open Idealize.ShloMosaic Idealize.ShloMosaic.ValueIdx

variable {M K N : ℕ}

/-- Entry `(p, j)` is the sum over `k` of `a (p, k) · x (k, j)`. -/
def rowsTimes (a : FVec Ideal ⟨2, ![M, K]⟩ .f32) (x : FVec Ideal ⟨2, ![K, N]⟩ .f32) : FVec Ideal ⟨2, ![M, N]⟩ .f32 :=
  fun i => ∑ k : Fin K, a (ix2 (n0 := M) (n1 := K) (i 0) k) * x (ix2 (n0 := K) (n1 := N) k (i 1))

theorem rowsTimes_apply (a : FVec Ideal ⟨2, ![M, K]⟩ .f32) (x : FVec Ideal ⟨2, ![K, N]⟩ .f32) (p : Fin M) (j : Fin N) :
    rowsTimes a x (ix2 p j) = ∑ k : Fin K, a (ix2 p k) * x (ix2 k j) := rfl

/-- The host's plain product is `rowsTimes`, at any precision and schedule. -/
theorem hostProduct_eq (a : FVec Ideal ⟨2, ![M, K]⟩ .f32) (x : FVec Ideal ⟨2, ![K, N]⟩ .f32)
    (prec : Option ContractPrecision) (sched : HostSchedule) :
    FloatOps.dotGeneral (DotDims.plain M K N) prec sched a x = rowsTimes a x :=
  funext fun i => by
    obtain ⟨p, j, rfl⟩ : ∃ (p : Fin M) (j : Fin N), i = ix2 p j := ⟨i 0, i 1, eq_ix2 i⟩
    exact Cert.LibPlainProduct.dotGeneral_plain_apply a x prec sched p j

/-- A matrix unit's plain product into the zero accumulator, read at `(p, j)`. -/
theorem unitProduct_apply (a : FVec Ideal ⟨2, ![M, K]⟩ .f32) (x : FVec Ideal ⟨2, ![K, N]⟩ .f32)
    (prec : Option ContractPrecision) (p : Fin M) (j : Fin N) :
    FloatOps.matmul (DotDims.plain M K N) prec a x (constant ⟨2, ![M, N]⟩ .f32 0x00000000#32) (ix2 p j)
      = ∑ k : Fin K, a (ix2 p k) * x (ix2 k j) :=
  Cert.LibPlainProduct.matmul_zero_plain_apply a x prec p j

end Cert.Spec

end
-- ==== Proof.Region0.lean ====
/-
  What the first launch leaves in its output array.

  The launch walks 32 row tiles. At tile `t` its body reads rows `256 t … 256 t + 255` of the left matrix (all 8192
  columns) and the whole right matrix, multiplies them on the matrix unit into a zero accumulator, and writes the
  `256 × 128` product as rows `256 t … 256 t + 255` of the output. At the exact instance the two narrowing format
  changes in the body are the identity, so entry `(p, q)` of the tile's product is `∑ k, left (256 t + p, k) ·
  right (k, q)`: the tile is the matching row block of ONE function of the two arrays, `rowsTimes left right`. The 32
  row blocks tile the output, so after the launch the output array is that function, whatever the arrays held at the
  launch's entry.
-/
import proofs.«171679_j13383118094871_1_alg».proof.Proof.Gen.KernelIdeal.Frame
import proofs.«171679_j13383118094871_1_alg».proof.Proof.Spec
import Idealize.ShloMosaic.Lib.Pipeline.Value
import Idealize.ShloMosaic.Lib.ValueIdx

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The tile product's printed dimension numbers are the plain ones. -/
theorem record_plain : dot_S256x8192_S8192x128_S256x128_1_0_0_1_n_n = DotDims.plain 256 8192 128 := rfl

/-- The body's stored value at `(p, q)`: row `p` of the left tile times column `q` of the right matrix. -/
theorem stored_apply (x0 : Vec Ideal S256x8192 .f32) (x1 : Vec Ideal S8192x128 .f32) (p : Fin 256) (q : Fin 128) :
    k0_pay1 x0 x1 (ix2 p q) = ∑ k : Fin 8192, x0 (ix2 p k) * x1 (ix2 k q) := by
  unfold k0_pay1
  rw [shapeCast_self, record_plain]
  exact unitProduct_apply x0 x1 none p q

/-- The printed index maps over the 32 tiles: the left window and the output move down one row tile per point and
    stay at column block 0; the right window stays at block (0, 0). -/
theorem tile_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point `t`'s left tile is rows `256 t … 256 t + 255` of the left matrix as the launch finds it. -/
theorem left_tile (c : Dev nD) (t : Fin cfg0.N) (p : Fin 256) (k : Fin 8192) (r : Fin 8192) (hr : r.val = 256 * t.val + p.val) :
    (iblk0 V c 0 t : Vec Ideal S256x8192 .f32) (ix2 p k) = (V c main_arg2 : S8192x8192.Idx → Elt Ideal .f32) (ix2 r k) := by
  obtain ⟨e0, e1, -⟩ := tile_facts t
  unfold iblk0
  rw [View.read_apply]
  show V c main_arg2 _ = V c main_arg2 _
  congr 1
  funext a
  apply Fin.ext
  match a with
  | ⟨0, _⟩ => show win0_0.index t 0 * 256 + 1 * p.val = r.val; rw [e0, hr]; omega
  | ⟨1, _⟩ => show win0_0.index t 1 * 8192 + 1 * k.val = k.val; rw [e1]; omega

/-- Point `t`'s right block is the whole right matrix. -/
theorem right_whole (c : Dev nD) (t : Fin cfg0.N) (k : Fin 8192) (q : Fin 128) :
    (iblk0 V c 1 t : Vec Ideal S8192x128 .f32) (ix2 k q) = (V c main_v0 : S8192x128.Idx → Elt Ideal .f32) (ix2 k q) := by
  obtain ⟨-, -, e2, e3, -⟩ := tile_facts t
  unfold iblk0
  rw [View.read_apply]
  show V c main_v0 _ = V c main_v0 _
  congr 1
  funext a
  apply Fin.ext
  match a with
  | ⟨0, _⟩ => show win0_1.index t 0 * 8192 + 1 * k.val = k.val; rw [e2]; omega
  | ⟨1, _⟩ => show win0_1.index t 1 * 128 + 1 * q.val = q.val; rw [e3]; omega

/-- WHAT POINT `t` WRITES BACK is row block `t` of `rowsTimes left right`. -/
theorem flushed_eq (c : Dev nD) (t : Fin cfg0.N) :
    (dat0 V c).flushed 2 t = ((cfg0.win 2).blk t).view.read (Elt Ideal) (rowsTimes (V c main_arg2) (V c main_v0)) := by
  show (cfg0.win 2).cut (grid0.coords t) ((dat0 V c).after 2 t) = _
  rw [after0_2]
  unfold out0_2
  rw [View.canon_unit_zero hz]
  simp only [View.ld_unit_zero (S := S256x8192) hz, View.ld_unit_zero (S := S8192x128) hz]
  funext j
  obtain ⟨p, q, rfl⟩ : ∃ (p : Fin 256) (q : Fin 128), j = ix2 p q := ⟨j 0, j 1, eq_ix2 j⟩
  obtain ⟨-, -, -, -, e4, e5⟩ := tile_facts t
  have ht : t.val < 32 := t.isLt
  have hr : 256 * t.val + p.val < 8192 := by have := p.isLt; omega
  have he : ((cfg0.win 2).blk t).view.emb (ix2 p q) = (ix2 (⟨256 * t.val + p.val, hr⟩ : Fin 8192) q : S8192x128.Idx) := by
    funext a
    apply Fin.ext
    match a with
    | ⟨0, _⟩ => show win0_2.index t 0 * 256 + 1 * p.val = 256 * t.val + p.val; rw [e4]; omega
    | ⟨1, _⟩ => show win0_2.index t 1 * 128 + 1 * q.val = q.val; rw [e5]; omega
  show k0_pay1 (iblk0 V c 0 t) (iblk0 V c 1 t) (ix2 p q)
    = rowsTimes (V c main_arg2) (V c main_v0) (((cfg0.win 2).blk t).view.emb (ix2 p q))
  refine (stored_apply _ _ p q).trans ?_
  refine Eq.trans ?_ (congrArg (rowsTimes (V c main_arg2) (V c main_v0)) he).symm
  rw [rowsTimes_apply]
  exact Finset.sum_congr rfl fun k _ => by rw [left_tile V c t p k ⟨_, hr⟩ rfl, right_whole V c t k q]

/-- Every row of the output lies in some point's row block: row `r` in block `r / 256`. -/
theorem covered (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 8192 := (i 0).isLt
  have h1 : (i 1 : Nat) < 128 := (i 1).isLt
  have ht : (i 0 : Nat) / 256 < 32 := by omega
  obtain ⟨-, -, -, -, e4, e5⟩ := tile_facts ⟨(i 0 : Nat) / 256, ht⟩
  refine ⟨⟨(i 0 : Nat) / 256, ht⟩, flush0_2 _, ?_⟩
  show i ∈ ((View.whole main_v1).slice (win0_2.rect ⟨(i 0 : Nat) / 256, ht⟩)).set
  rw [View.set_slice_whole, Rect.mem_set_unit]
  intro a
  match a with
  | ⟨0, _⟩ =>
    show win0_2.index ⟨(i 0 : Nat) / 256, ht⟩ 0 * 256 ≤ (i 0 : Nat) ∧ (i 0 : Nat) < win0_2.index ⟨(i 0 : Nat) / 256, ht⟩ 0 * 256 + 256
    rw [e4]; show (i 0 : Nat) / 256 * 256 ≤ _ ∧ _ < (i 0 : Nat) / 256 * 256 + 256; omega
  | ⟨1, _⟩ =>
    show win0_2.index ⟨(i 0 : Nat) / 256, ht⟩ 1 * 128 ≤ (i 1 : Nat) ∧ (i 1 : Nat) < win0_2.index ⟨(i 0 : Nat) / 256, ht⟩ 1 * 128 + 128
    rw [e5]; omega

/-- THE OUTPUT ARRAY after the launch: the left matrix's rows times the right matrix's columns. -/
theorem final (c : Dev nD) : (dat0 V c).arrAt 2 cfg0.N = rowsTimes (V c main_arg2) (V c main_v0) :=
  (dat0 V c).arrAt_eq_of_cover 2 (rowsTimes (V c main_arg2) (V c main_v0)) (fun t _ => flushed_eq V c t) (covered c)

end Cert.KernelIdeal.Region0

end
-- ==== Proof.Region1.lean ====
/-
  What the second launch leaves in its output array.

  The launch walks 32 row tiles. At tile `t` its body reads rows `256 t … 256 t + 255` of the left matrix (all 8192
  columns) and the whole right matrix, multiplies them on the matrix unit into a zero accumulator, and writes the
  `256 × 128` product as rows `256 t … 256 t + 255` of the output. At the exact instance the two narrowing format
  changes in the body are the identity, so entry `(p, q)` of the tile's product is `∑ k, left (256 t + p, k) ·
  right (k, q)`: the tile is the matching row block of ONE function of the two arrays, `rowsTimes left right`. The 32
  row blocks tile the output, so after the launch the output array is that function, whatever the arrays held at the
  launch's entry.
-/
import proofs.«171679_j13383118094871_1_alg».proof.Proof.Gen.KernelIdeal.Frame
import proofs.«171679_j13383118094871_1_alg».proof.Proof.Spec
import Idealize.ShloMosaic.Lib.Pipeline.Value
import Idealize.ShloMosaic.Lib.ValueIdx

set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The tile product's printed dimension numbers are the plain ones. -/
theorem record_plain : dot_S256x8192_S8192x128_S256x128_1_0_0_1_n_n = DotDims.plain 256 8192 128 := rfl

/-- The body's stored value at `(p, q)`: row `p` of the left tile times column `q` of the right matrix. -/
theorem stored_apply (x0 : Vec Ideal S256x8192 .f32) (x1 : Vec Ideal S8192x128 .f32) (p : Fin 256) (q : Fin 128) :
    k1_pay1 x0 x1 (ix2 p q) = ∑ k : Fin 8192, x0 (ix2 p k) * x1 (ix2 k q) := by
  unfold k1_pay1
  rw [shapeCast_self, record_plain]
  exact unitProduct_apply x0 x1 none p q

/-- The printed index maps over the 32 tiles: the left window and the output move down one row tile per point and
    stay at column block 0; the right window stays at block (0, 0). -/
theorem tile_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Point `t`'s left tile is rows `256 t … 256 t + 255` of the left matrix as the launch finds it. -/
theorem left_tile (c : Dev nD) (t : Fin cfg1.N) (p : Fin 256) (k : Fin 8192) (r : Fin 8192) (hr : r.val = 256 * t.val + p.val) :
    (iblk1 V c 0 t : Vec Ideal S256x8192 .f32) (ix2 p k) = (V c main_arg1 : S8192x8192.Idx → Elt Ideal .f32) (ix2 r k) := by
  obtain ⟨e0, e1, -⟩ := tile_facts t
  unfold iblk1
  rw [View.read_apply]
  show V c main_arg1 _ = V c main_arg1 _
  congr 1
  funext a
  apply Fin.ext
  match a with
  | ⟨0, _⟩ => show win1_0.index t 0 * 256 + 1 * p.val = r.val; rw [e0, hr]; omega
  | ⟨1, _⟩ => show win1_0.index t 1 * 8192 + 1 * k.val = k.val; rw [e1]; omega

/-- Point `t`'s right block is the whole right matrix. -/
theorem right_whole (c : Dev nD) (t : Fin cfg1.N) (k : Fin 8192) (q : Fin 128) :
    (iblk1 V c 1 t : Vec Ideal S8192x128 .f32) (ix2 k q) = (V c main_v4 : S8192x128.Idx → Elt Ideal .f32) (ix2 k q) := by
  obtain ⟨-, -, e2, e3, -⟩ := tile_facts t
  unfold iblk1
  rw [View.read_apply]
  show V c main_v4 _ = V c main_v4 _
  congr 1
  funext a
  apply Fin.ext
  match a with
  | ⟨0, _⟩ => show win1_1.index t 0 * 8192 + 1 * k.val = k.val; rw [e2]; omega
  | ⟨1, _⟩ => show win1_1.index t 1 * 128 + 1 * q.val = q.val; rw [e3]; omega

/-- WHAT POINT `t` WRITES BACK is row block `t` of `rowsTimes left right`. -/
theorem flushed_eq (c : Dev nD) (t : Fin cfg1.N) :
    (dat1 V c).flushed 2 t = ((cfg1.win 2).blk t).view.read (Elt Ideal) (rowsTimes (V c main_arg1) (V c main_v4)) := by
  show (cfg1.win 2).cut (grid1.coords t) ((dat1 V c).after 2 t) = _
  rw [after1_2]
  unfold out1_2
  rw [View.canon_unit_zero hz]
  simp only [View.ld_unit_zero (S := S256x8192) hz, View.ld_unit_zero (S := S8192x128) hz]
  funext j
  obtain ⟨p, q, rfl⟩ : ∃ (p : Fin 256) (q : Fin 128), j = ix2 p q := ⟨j 0, j 1, eq_ix2 j⟩
  obtain ⟨-, -, -, -, e4, e5⟩ := tile_facts t
  have ht : t.val < 32 := t.isLt
  have hr : 256 * t.val + p.val < 8192 := by have := p.isLt; omega
  have he : ((cfg1.win 2).blk t).view.emb (ix2 p q) = (ix2 (⟨256 * t.val + p.val, hr⟩ : Fin 8192) q : S8192x128.Idx) := by
    funext a
    apply Fin.ext
    match a with
    | ⟨0, _⟩ => show win1_2.index t 0 * 256 + 1 * p.val = 256 * t.val + p.val; rw [e4]; omega
    | ⟨1, _⟩ => show win1_2.index t 1 * 128 + 1 * q.val = q.val; rw [e5]; omega
  show k1_pay1 (iblk1 V c 0 t) (iblk1 V c 1 t) (ix2 p q)
    = rowsTimes (V c main_arg1) (V c main_v4) (((cfg1.win 2).blk t).view.emb (ix2 p q))
  refine (stored_apply _ _ p q).trans ?_
  refine Eq.trans ?_ (congrArg (rowsTimes (V c main_arg1) (V c main_v4)) he).symm
  rw [rowsTimes_apply]
  exact Finset.sum_congr rfl fun k _ => by rw [left_tile V c t p k ⟨_, hr⟩ rfl, right_whole V c t k q]

/-- Every row of the output lies in some point's row block: row `r` in block `r / 256`. -/
theorem covered (c : Dev nD) (i : ((cfg1.win 2).arr.view.loc (c.tc : Thread nD τ)).2.ty.Idx) :
    ∃ t : Fin cfg1.N, (cfg1.win 2).flush t = true ∧ i ∈ ((cfg1.win 2).blk t).view.set := by
  have h0 : (i 0 : Nat) < 8192 := (i 0).isLt
  have h1 : (i 1 : Nat) < 128 := (i 1).isLt
  have ht : (i 0 : Nat) / 256 < 32 := by omega
  obtain ⟨-, -, -, -, e4, e5⟩ := tile_facts ⟨(i 0 : Nat) / 256, ht⟩
  refine ⟨⟨(i 0 : Nat) / 256, ht⟩, flush1_2 _, ?_⟩
  show i ∈ ((View.whole main_v5).slice (win1_2.rect ⟨(i 0 : Nat) / 256, ht⟩)).set
  rw [View.set_slice_whole, Rect.mem_set_unit]
  intro a
  match a with
  | ⟨0, _⟩ =>
    show win1_2.index ⟨(i 0 : Nat) / 256, ht⟩ 0 * 256 ≤ (i 0 : Nat) ∧ (i 0 : Nat) < win1_2.index ⟨(i 0 : Nat) / 256, ht⟩ 0 * 256 + 256
    rw [e4]; show (i 0 : Nat) / 256 * 256 ≤ _ ∧ _ < (i 0 : Nat) / 256 * 256 + 256; omega
  | ⟨1, _⟩ =>
    show win1_2.index ⟨(i 0 : Nat) / 256, ht⟩ 1 * 128 ≤ (i 1 : Nat) ∧ (i 1 : Nat) < win1_2.index ⟨(i 0 : Nat) / 256, ht⟩ 1 * 128 + 128
    rw [e5]; omega

/-- THE OUTPUT ARRAY after the launch: the left matrix's rows times the right matrix's columns. -/
theorem final (c : Dev nD) : (dat1 V c).arrAt 2 cfg1.N = rowsTimes (V c main_arg1) (V c main_v4) :=
  (dat1 V c).arrAt_eq_of_cover 2 (rowsTimes (V c main_arg1) (V c main_v4)) (fun t _ => flushed_eq V c t) (covered c)

end Cert.KernelIdeal.Region1

end
-- ==== Proof.Region2.lean ====
/-
  What the third launch leaves in its output array.

  The launch walks 32 row tiles. At tile `t` its body reads rows `256 t … 256 t + 255` of the left matrix (all 8192
  columns) and the whole right matrix, multiplies them on the matrix unit into a zero accumulator, and writes the
  `256 × 128` product as rows `256 t … 256 t + 255` of the output. At the exact instance the two narrowing format
  changes in the body are the identity, so entry `(p, q)` of the tile's product is `∑ k, left (256 t + p, k) ·
  right (k, q)`: the tile is the matching row block of ONE function of the two arrays, `rowsTimes left right`. The 32
  row blocks tile the output, so after the launch the output array is that function, whatever the arrays held at the
  launch's entry.
-/
import proofs.«171679_j13383118094871_1_alg».proof.Proof.Gen.KernelIdeal.Frame
import proofs.«171679_j13383118094871_1_alg».proof.Proof.Spec
import Idealize.ShloMosaic.Lib.Pipeline.Value
import Idealize.ShloMosaic.Lib.ValueIdx

set_option maxRecDepth 16384

noncomputable section

open scoped BigOperators

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The tile product's printed dimension numbers are the plain ones. -/
theorem record_plain : dot_S256x8192_S8192x128_S256x128_1_0_0_1_n_n = DotDims.plain 256 8192 128 := rfl

/-- The body's stored value at `(p, q)`: row `p` of the left tile times column `q` of the right matrix. -/
theorem stored_apply (x0 : Vec Ideal S256x8192 .f32) (x1 : Vec Ideal S8192x128 .f32) (p : Fin 256) (q : Fin 128) :
    k2_pay1 x0 x1 (ix2 p q) = ∑ k : Fin 8192, x0 (ix2 p k) * x1 (ix2 k q) := by
  unfold k2_pay1
  rw [shapeCast_self, record_plain]
  exact unitProduct_apply x0 x1 none p q

/-- The printed index maps over the 32 tiles: the left window and the output move down one row tile per point and
    stay at column block 0; the right window stays at block (0, 0). -/
theorem tile_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Point `t`'s left tile is rows `256 t … 256 t + 255` of the left matrix as the launch finds it. -/
theorem left_tile (c : Dev nD) (t : Fin cfg2.N) (p : Fin 256) (k : Fin 8192) (r : Fin 8192) (hr : r.val = 256 * t.val + p.val) :
    (iblk2 V c 0 t : Vec Ideal S256x8192 .f32) (ix2 p k) = (V c main_arg2 : S8192x8192.Idx → Elt Ideal .f32) (ix2 r k) := by
  obtain ⟨e0, e1, -⟩ := tile_facts t
  unfold iblk2
  rw [View.read_apply]
  show V c main_arg2 _ = V c main_arg2 _
  congr 1
  funext a
  apply Fin.ext
  match a with
  | ⟨0, _⟩ => show win2_0.index t 0 * 256 + 1 * p.val = r.val; rw [e0, hr]; omega
  | ⟨1, _⟩ => show win2_0.index t 1 * 8192 + 1 * k.val = k.val; rw [e1]; omega

/-- Point `t`'s right block is the whole right matrix. -/
theorem right_whole (c : Dev nD) (t : Fin cfg2.N) (k : Fin 8192) (q : Fin 128) :
    (iblk2 V c 1 t : Vec Ideal S8192x128 .f32) (ix2 k q) = (V c main_v7 : S8192x128.Idx → Elt Ideal .f32) (ix2 k q) := by
  obtain ⟨-, -, e2, e3, -⟩ := tile_facts t
  unfold iblk2
  rw [View.read_apply]
  show V c main_v7 _ = V c main_v7 _
  congr 1
  funext a
  apply Fin.ext
  match a with
  | ⟨0, _⟩ => show win2_1.index t 0 * 8192 + 1 * k.val = k.val; rw [e2]; omega
  | ⟨1, _⟩ => show win2_1.index t 1 * 128 + 1 * q.val = q.val; rw [e3]; omega

/-- WHAT POINT `t` WRITES BACK is row block `t` of `rowsTimes left right`. -/
theorem flushed_eq (c : Dev nD) (t : Fin cfg2.N) :
    (dat2 V c).flushed 2 t = ((cfg2.win 2).blk t).view.read (Elt Ideal) (rowsTimes (V c main_arg2) (V c main_v7)) := by
  show (cfg2.win 2).cut (grid2.coords t) ((dat2 V c).after 2 t) = _
  rw [after2_2]
  unfold out2_2
  rw [View.canon_unit_zero hz]
  simp only [View.ld_unit_zero (S := S256x8192) hz, View.ld_unit_zero (S := S8192x128) hz]
  funext j
  obtain ⟨p, q, rfl⟩ : ∃ (p : Fin 256) (q : Fin 128), j = ix2 p q := ⟨j 0, j 1, eq_ix2 j⟩
  obtain ⟨-, -, -, -, e4, e5⟩ := tile_facts t
  have ht : t.val < 32 := t.isLt
  have hr : 256 * t.val + p.val < 8192 := by have := p.isLt; omega
  have he : ((cfg2.win 2).blk t).view.emb (ix2 p q) = (ix2 (⟨256 * t.val + p.val, hr⟩ : Fin 8192) q : S8192x128.Idx) := by
    funext a
    apply Fin.ext
    match a with
    | ⟨0, _⟩ => show win2_2.index t 0 * 256 + 1 * p.val = 256 * t.val + p.val; rw [e4]; omega
    | ⟨1, _⟩ => show win2_2.index t 1 * 128 + 1 * q.val = q.val; rw [e5]; omega
  show k2_pay1 (iblk2 V c 0 t) (iblk2 V c 1 t) (ix2 p q)
    = rowsTimes (V c main_arg2) (V c main_v7) (((cfg2.win 2).blk t).view.emb (ix2 p q))
  refine (stored_apply _ _ p q).trans ?_
  refine Eq.trans ?_ (congrArg (rowsTimes (V c main_arg2) (V c main_v7)) he).symm
  rw [rowsTimes_apply]
  exact Finset.sum_congr rfl fun k _ => by rw [left_tile V c t p k ⟨_, hr⟩ rfl, right_whole V c t k q]

/-- Every row of the output lies in some point's row block: row `r` in block `r / 256`. -/
theorem covered (c : Dev nD) (i : ((cfg2.win 2).arr.view.loc (c.tc : Thread nD τ)).2.ty.Idx) :
    ∃ t : Fin cfg2.N, (cfg2.win 2).flush t = true ∧ i ∈ ((cfg2.win 2).blk t).view.set := by
  have h0 : (i 0 : Nat) < 8192 := (i 0).isLt
  have h1 : (i 1 : Nat) < 128 := (i 1).isLt
  have ht : (i 0 : Nat) / 256 < 32 := by omega
  obtain ⟨-, -, -, -, e4, e5⟩ := tile_facts ⟨(i 0 : Nat) / 256, ht⟩
  refine ⟨⟨(i 0 : Nat) / 256, ht⟩, flush2_2 _, ?_⟩
  show i ∈ ((View.whole main_v8).slice (win2_2.rect ⟨(i 0 : Nat) / 256, ht⟩)).set
  rw [View.set_slice_whole, Rect.mem_set_unit]
  intro a
  match a with
  | ⟨0, _⟩ =>
    show win2_2.index ⟨(i 0 : Nat) / 256, ht⟩ 0 * 256 ≤ (i 0 : Nat) ∧ (i 0 : Nat) < win2_2.index ⟨(i 0 : Nat) / 256, ht⟩ 0 * 256 + 256
    rw [e4]; show (i 0 : Nat) / 256 * 256 ≤ _ ∧ _ < (i 0 : Nat) / 256 * 256 + 256; omega
  | ⟨1, _⟩ =>
    show win2_2.index ⟨(i 0 : Nat) / 256, ht⟩ 1 * 128 ≤ (i 1 : Nat) ∧ (i 1 : Nat) < win2_2.index ⟨(i 0 : Nat) / 256, ht⟩ 1 * 128 + 128
    rw [e5]; omega

/-- THE OUTPUT ARRAY after the launch: the left matrix's rows times the right matrix's columns. -/
theorem final (c : Dev nD) : (dat2 V c).arrAt 2 cfg2.N = rowsTimes (V c main_arg2) (V c main_v7) :=
  (dat2 V c).arrAt_eq_of_cover 2 (rowsTimes (V c main_arg2) (V c main_v7)) (fun t _ => flushed_eq V c t) (covered c)

end Cert.KernelIdeal.Region2

end
-- ==== Proof.Region3.lean ====
/-
  What the fourth launch leaves in its output array.

  The launch walks 32 row tiles. At tile `t` its body reads rows `256 t … 256 t + 255` of the left matrix (all 8192
  columns) and the whole right matrix, multiplies them on the matrix unit into a zero accumulator, and writes the
  `256 × 128` product as rows `256 t … 256 t + 255` of the output. At the exact instance the two narrowing format
  changes in the body are the identity, so entry `(p, q)` of the tile's product is `∑ k, left (256 t + p, k) ·
  right (k, q)`: the tile is the matching row block of ONE function of the two arrays, `rowsTimes left right`. The 32
  row blocks tile the output, so after the launch the output array is that function, whatever the arrays held at the
  launch's entry.
-/
import proofs.«171679_j13383118094871_1_alg».proof.Proof.Gen.KernelIdeal.Frame
import proofs.«171679_j13383118094871_1_alg».proof.Proof.Spec
import Idealize.ShloMosaic.Lib.Pipeline.Value
import Idealize.ShloMosaic.Lib.ValueIdx

set_option maxRecDepth 16384

noncomputable section

open scoped BigOperators

namespace Cert.KernelIdeal.Region3

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

theorem hz : (![0, 0] : Fin 2 → Nat) = fun _ => 0 := funext fun a => by fin_cases a <;> rfl

/-- The tile product's printed dimension numbers are the plain ones. -/
theorem record_plain : dot_S256x8192_S8192x128_S256x128_1_0_0_1_n_n = DotDims.plain 256 8192 128 := rfl

/-- The body's stored value at `(p, q)`: row `p` of the left tile times column `q` of the right matrix. -/
theorem stored_apply (x0 : Vec Ideal S256x8192 .f32) (x1 : Vec Ideal S8192x128 .f32) (p : Fin 256) (q : Fin 128) :
    k3_pay1 x0 x1 (ix2 p q) = ∑ k : Fin 8192, x0 (ix2 p k) * x1 (ix2 k q) := by
  unfold k3_pay1
  rw [shapeCast_self, record_plain]
  exact unitProduct_apply x0 x1 none p q

/-- The printed index maps over the 32 tiles: the left window and the output move down one row tile per point and
    stay at column block 0; the right window stays at block (0, 0). -/
theorem tile_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Point `t`'s left tile is rows `256 t … 256 t + 255` of the left matrix as the launch finds it. -/
theorem left_tile (c : Dev nD) (t : Fin cfg3.N) (p : Fin 256) (k : Fin 8192) (r : Fin 8192) (hr : r.val = 256 * t.val + p.val) :
    (iblk3 V c 0 t : Vec Ideal S256x8192 .f32) (ix2 p k) = (V c main_arg1 : S8192x8192.Idx → Elt Ideal .f32) (ix2 r k) := by
  obtain ⟨e0, e1, -⟩ := tile_facts t
  unfold iblk3
  rw [View.read_apply]
  show V c main_arg1 _ = V c main_arg1 _
  congr 1
  funext a
  apply Fin.ext
  match a with
  | ⟨0, _⟩ => show win3_0.index t 0 * 256 + 1 * p.val = r.val; rw [e0, hr]; omega
  | ⟨1, _⟩ => show win3_0.index t 1 * 8192 + 1 * k.val = k.val; rw [e1]; omega

/-- Point `t`'s right block is the whole right matrix. -/
theorem right_whole (c : Dev nD) (t : Fin cfg3.N) (k : Fin 8192) (q : Fin 128) :
    (iblk3 V c 1 t : Vec Ideal S8192x128 .f32) (ix2 k q) = (V c main_v11 : S8192x128.Idx → Elt Ideal .f32) (ix2 k q) := by
  obtain ⟨-, -, e2, e3, -⟩ := tile_facts t
  unfold iblk3
  rw [View.read_apply]
  show V c main_v11 _ = V c main_v11 _
  congr 1
  funext a
  apply Fin.ext
  match a with
  | ⟨0, _⟩ => show win3_1.index t 0 * 8192 + 1 * k.val = k.val; rw [e2]; omega
  | ⟨1, _⟩ => show win3_1.index t 1 * 128 + 1 * q.val = q.val; rw [e3]; omega

/-- WHAT POINT `t` WRITES BACK is row block `t` of `rowsTimes left right`. -/
theorem flushed_eq (c : Dev nD) (t : Fin cfg3.N) :
    (dat3 V c).flushed 2 t = ((cfg3.win 2).blk t).view.read (Elt Ideal) (rowsTimes (V c main_arg1) (V c main_v11)) := by
  show (cfg3.win 2).cut (grid3.coords t) ((dat3 V c).after 2 t) = _
  rw [after3_2]
  unfold out3_2
  rw [View.canon_unit_zero hz]
  simp only [View.ld_unit_zero (S := S256x8192) hz, View.ld_unit_zero (S := S8192x128) hz]
  funext j
  obtain ⟨p, q, rfl⟩ : ∃ (p : Fin 256) (q : Fin 128), j = ix2 p q := ⟨j 0, j 1, eq_ix2 j⟩
  obtain ⟨-, -, -, -, e4, e5⟩ := tile_facts t
  have ht : t.val < 32 := t.isLt
  have hr : 256 * t.val + p.val < 8192 := by have := p.isLt; omega
  have he : ((cfg3.win 2).blk t).view.emb (ix2 p q) = (ix2 (⟨256 * t.val + p.val, hr⟩ : Fin 8192) q : S8192x128.Idx) := by
    funext a
    apply Fin.ext
    match a with
    | ⟨0, _⟩ => show win3_2.index t 0 * 256 + 1 * p.val = 256 * t.val + p.val; rw [e4]; omega
    | ⟨1, _⟩ => show win3_2.index t 1 * 128 + 1 * q.val = q.val; rw [e5]; omega
  show k3_pay1 (iblk3 V c 0 t) (iblk3 V c 1 t) (ix2 p q)
    = rowsTimes (V c main_arg1) (V c main_v11) (((cfg3.win 2).blk t).view.emb (ix2 p q))
  refine (stored_apply _ _ p q).trans ?_
  refine Eq.trans ?_ (congrArg (rowsTimes (V c main_arg1) (V c main_v11)) he).symm
  rw [rowsTimes_apply]
  exact Finset.sum_congr rfl fun k _ => by rw [left_tile V c t p k ⟨_, hr⟩ rfl, right_whole V c t k q]

/-- Every row of the output lies in some point's row block: row `r` in block `r / 256`. -/
theorem covered (c : Dev nD) (i : ((cfg3.win 2).arr.view.loc (c.tc : Thread nD τ)).2.ty.Idx) :
    ∃ t : Fin cfg3.N, (cfg3.win 2).flush t = true ∧ i ∈ ((cfg3.win 2).blk t).view.set := by
  have h0 : (i 0 : Nat) < 8192 := (i 0).isLt
  have h1 : (i 1 : Nat) < 128 := (i 1).isLt
  have ht : (i 0 : Nat) / 256 < 32 := by omega
  obtain ⟨-, -, -, -, e4, e5⟩ := tile_facts ⟨(i 0 : Nat) / 256, ht⟩
  refine ⟨⟨(i 0 : Nat) / 256, ht⟩, flush3_2 _, ?_⟩
  show i ∈ ((View.whole main_v12).slice (win3_2.rect ⟨(i 0 : Nat) / 256, ht⟩)).set
  rw [View.set_slice_whole, Rect.mem_set_unit]
  intro a
  match a with
  | ⟨0, _⟩ =>
    show win3_2.index ⟨(i 0 : Nat) / 256, ht⟩ 0 * 256 ≤ (i 0 : Nat) ∧ (i 0 : Nat) < win3_2.index ⟨(i 0 : Nat) / 256, ht⟩ 0 * 256 + 256
    rw [e4]; show (i 0 : Nat) / 256 * 256 ≤ _ ∧ _ < (i 0 : Nat) / 256 * 256 + 256; omega
  | ⟨1, _⟩ =>
    show win3_2.index ⟨(i 0 : Nat) / 256, ht⟩ 1 * 128 ≤ (i 1 : Nat) ∧ (i 1 : Nat) < win3_2.index ⟨(i 0 : Nat) / 256, ht⟩ 1 * 128 + 128
    rw [e5]; omega

/-- THE OUTPUT ARRAY after the launch: the left matrix's rows times the right matrix's columns. -/
theorem final (c : Dev nD) : (dat3 V c).arrAt 2 cfg3.N = rowsTimes (V c main_arg1) (V c main_v11) :=
  (dat3 V c).arrAt_eq_of_cover 2 (rowsTimes (V c main_arg1) (V c main_v11)) (fun t _ => flushed_eq V c t) (covered c)

end Cert.KernelIdeal.Region3

end
-- ==== Proof.Net.lean ====
/-
  The whole computation as one function of the seven arrays.

  One layer takes features `x` (8192 × 128), projects them by a 128 × 128 matrix `W`, carries them to the spectral
  domain by the inverse wavelet matrix `wi`, scales spectral row `r` by `f r`, and carries them back by the wavelet
  matrix `wv`:   layer x = wv · (diag f · (wi · (x · W))).
  The network is two layers with `max(·, 0)` between them. Every product is `rowsTimes`; the scaling and the
  clamp are written with the host's own broadcast, multiply and maximum, so that each program's host glue is this
  text literally. The three broadcast side conditions are taken as a hypothesis: they are facts about shapes, and
  any two proofs of them give the same function.
-/
import proofs.«171679_j13383118094871_1_alg».proof.Proof.Spec

noncomputable section

namespace Cert.Spec

open Idealize.ShloMosaic

abbrev SA : Shape := ⟨2, ![8192, 8192]⟩
abbrev SX : Shape := ⟨2, ![8192, 128]⟩
abbrev SW : Shape := ⟨2, ![128, 128]⟩
abbrev SF : Shape := ⟨1, ![8192]⟩
abbrev SC : Shape := ⟨2, ![8192, 1]⟩
abbrev S0 : Shape := ⟨0, ![]⟩

/-- The shape relations the three broadcasts ask for. -/
structure Bcasts : Prop where
  column : SF.BroadcastsInDim SC (![0] : Fin 1 → Fin SC.rank)
  across : SC.BroadcastsInDim SX (![0, 1] : Fin 2 → Fin SX.rank)
  splat : S0.BroadcastsInDim SX (![] : Fin 0 → Fin SX.rank)

/-- Row `r` of `x` scaled by `f r`: `f` laid out as a column, spread across the 128 columns, times `x`. -/
def scaleRows (h : Bcasts) (f : FVec Ideal SF .f32) (x : FVec Ideal SX .f32) : FVec Ideal SX .f32 :=
  mulf (broadcastInDim SX ![0, 1] h.across (broadcastInDim SC ![0] h.column f)) x

/-- Entrywise `max(x, 0)`. -/
def clamp (h : Bcasts) (x : FVec Ideal SX .f32) : FVec Ideal SX .f32 :=
  maximumf x (broadcastInDim SX ![] h.splat (constant S0 .f32 0x00000000#32))

/-- `wv · (diag f · (wi · (x · W)))`. -/
def layer (h : Bcasts) (wv wi : FVec Ideal SA .f32) (W : FVec Ideal SW .f32) (f : FVec Ideal SF .f32)
    (x : FVec Ideal SX .f32) : FVec Ideal SX .f32 :=
  rowsTimes wv (scaleRows h f (rowsTimes wi (rowsTimes x W)))

/-- Two layers, clamped between. -/
def net (h : Bcasts) (x : FVec Ideal SX .f32) (wv wi : FVec Ideal SA .f32) (W1 : FVec Ideal SW .f32) (f1 : FVec Ideal SF .f32)
    (W2 : FVec Ideal SW .f32) (f2 : FVec Ideal SF .f32) : FVec Ideal SX .f32 :=
  layer h wv wi W2 f2 (clamp h (layer h wv wi W1 f1 x))

end Cert.Spec

end
-- ==== Proof.ArgsKept.lean ====
/-
  The arguments at the boundaries where they are read.

  No host operation and no launch of the idealized program writes an argument array: a host stretch leaves a
  buffer none of its operations writes as it was, a launch leaves a buffer outside its three arrays as it was, and a
  launch that READS an argument through an input window leaves that array as it found it. So at every boundary the
  contents at an argument are the launch memory's. Stated here for exactly the (boundary, argument) pairs the
  later stretches and launches read.
-/
import proofs.«171679_j13383118094871_1_alg».proof.Proof.Gen.KernelIdeal.Frame
import Idealize.ShloMosaic.Lib.StableHlo.Run
import Idealize.ShloMosaic.PureOps.Ideal

set_option maxRecDepth 16384

noncomputable section

namespace Cert.KernelIdeal.Fold

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

theorem W1_a1 (c : Dev nD) : W1 m ρ c (Proc.devRef .tc main_arg1) = m ((c.tc : Thread nD τ).loc main_arg1) := by
  show StableHlo.after hostOps0 (W0 m ρ c) (Proc.devRef .tc main_arg1) = _
  after_results <;> first | exact rfl | rfl
theorem W1_a2 (c : Dev nD) : W1 m ρ c (Proc.devRef .tc main_arg2) = m ((c.tc : Thread nD τ).loc main_arg2) := by
  show StableHlo.after hostOps0 (W0 m ρ c) (Proc.devRef .tc main_arg2) = _
  after_results <;> first | exact rfl | rfl
theorem W1_a4 (c : Dev nD) : W1 m ρ c (Proc.devRef .tc main_arg4) = m ((c.tc : Thread nD τ).loc main_arg4) := by
  show StableHlo.after hostOps0 (W0 m ρ c) (Proc.devRef .tc main_arg4) = _
  after_results <;> first | exact rfl | rfl
theorem W1_a5 (c : Dev nD) : W1 m ρ c (Proc.devRef .tc main_arg5) = m ((c.tc : Thread nD τ).loc main_arg5) := by
  show StableHlo.after hostOps0 (W0 m ρ c) (Proc.devRef .tc main_arg5) = _
  after_results <;> first | exact rfl | rfl
theorem W1_a6 (c : Dev nD) : W1 m ρ c (Proc.devRef .tc main_arg6) = m ((c.tc : Thread nD τ).loc main_arg6) := by
  show StableHlo.after hostOps0 (W0 m ρ c) (Proc.devRef .tc main_arg6) = _
  after_results <;> first | exact rfl | rfl
theorem W2_a1 (c : Dev nD) : W2 m ρ c (Proc.devRef .tc main_arg1) = m ((c.tc : Thread nD τ).loc main_arg1) :=
  (W2_of_ne m ρ c main_arg1 (by decide)).trans (W1_a1 m ρ c)
theorem W2_a4 (c : Dev nD) : W2 m ρ c (Proc.devRef .tc main_arg4) = m ((c.tc : Thread nD τ).loc main_arg4) :=
  (W2_of_ne m ρ c main_arg4 (by decide)).trans (W1_a4 m ρ c)
theorem W2_a5 (c : Dev nD) : W2 m ρ c (Proc.devRef .tc main_arg5) = m ((c.tc : Thread nD τ).loc main_arg5) :=
  (W2_of_ne m ρ c main_arg5 (by decide)).trans (W1_a5 m ρ c)
theorem W2_a6 (c : Dev nD) : W2 m ρ c (Proc.devRef .tc main_arg6) = m ((c.tc : Thread nD τ).loc main_arg6) :=
  (W2_of_ne m ρ c main_arg6 (by decide)).trans (W1_a6 m ρ c)
theorem W2_a2 (c : Dev nD) : W2 m ρ c (Proc.devRef .tc main_arg2) = m ((c.tc : Thread nD τ).loc main_arg2) :=
  (W2_arr m ρ c 0).trans (((dat0 (V1 m ρ) c).arrAt_in 0 rfl _).trans ((A_eq0 (V1 m ρ) c 0).trans (W1_a2 m ρ c)))
theorem W3_a1 (c : Dev nD) : W3 m ρ c (Proc.devRef .tc main_arg1) = m ((c.tc : Thread nD τ).loc main_arg1) := by
  show StableHlo.after hostOps1 (W2 m ρ c) (Proc.devRef .tc main_arg1) = _
  after_results <;> first | exact W2_a1 m ρ c | rfl
theorem W3_a2 (c : Dev nD) : W3 m ρ c (Proc.devRef .tc main_arg2) = m ((c.tc : Thread nD τ).loc main_arg2) := by
  show StableHlo.after hostOps1 (W2 m ρ c) (Proc.devRef .tc main_arg2) = _
  after_results <;> first | exact W2_a2 m ρ c | rfl
theorem W3_a5 (c : Dev nD) : W3 m ρ c (Proc.devRef .tc main_arg5) = m ((c.tc : Thread nD τ).loc main_arg5) := by
  show StableHlo.after hostOps1 (W2 m ρ c) (Proc.devRef .tc main_arg5) = _
  after_results <;> first | exact W2_a5 m ρ c | rfl
theorem W3_a6 (c : Dev nD) : W3 m ρ c (Proc.devRef .tc main_arg6) = m ((c.tc : Thread nD τ).loc main_arg6) := by
  show StableHlo.after hostOps1 (W2 m ρ c) (Proc.devRef .tc main_arg6) = _
  after_results <;> first | exact W2_a6 m ρ c | rfl
theorem W4_a2 (c : Dev nD) : W4 m ρ c (Proc.devRef .tc main_arg2) = m ((c.tc : Thread nD τ).loc main_arg2) :=
  (W4_of_ne m ρ c main_arg2 (by decide)).trans (W3_a2 m ρ c)
theorem W4_a5 (c : Dev nD) : W4 m ρ c (Proc.devRef .tc main_arg5) = m ((c.tc : Thread nD τ).loc main_arg5) :=
  (W4_of_ne m ρ c main_arg5 (by decide)).trans (W3_a5 m ρ c)
theorem W4_a6 (c : Dev nD) : W4 m ρ c (Proc.devRef .tc main_arg6) = m ((c.tc : Thread nD τ).loc main_arg6) :=
  (W4_of_ne m ρ c main_arg6 (by decide)).trans (W3_a6 m ρ c)
theorem W4_a1 (c : Dev nD) : W4 m ρ c (Proc.devRef .tc main_arg1) = m ((c.tc : Thread nD τ).loc main_arg1) :=
  (W4_arr m ρ c 0).trans (((dat1 (V3 m ρ) c).arrAt_in 0 rfl _).trans ((A_eq1 (V3 m ρ) c 0).trans (W3_a1 m ρ c)))
theorem W5_a1 (c : Dev nD) : W5 m ρ c (Proc.devRef .tc main_arg1) = m ((c.tc : Thread nD τ).loc main_arg1) := by
  show StableHlo.after hostOps2 (W4 m ρ c) (Proc.devRef .tc main_arg1) = _
  after_results <;> first | exact W4_a1 m ρ c | rfl
theorem W5_a2 (c : Dev nD) : W5 m ρ c (Proc.devRef .tc main_arg2) = m ((c.tc : Thread nD τ).loc main_arg2) := by
  show StableHlo.after hostOps2 (W4 m ρ c) (Proc.devRef .tc main_arg2) = _
  after_results <;> first | exact W4_a2 m ρ c | rfl
theorem W5_a5 (c : Dev nD) : W5 m ρ c (Proc.devRef .tc main_arg5) = m ((c.tc : Thread nD τ).loc main_arg5) := by
  show StableHlo.after hostOps2 (W4 m ρ c) (Proc.devRef .tc main_arg5) = _
  after_results <;> first | exact W4_a5 m ρ c | rfl
theorem W5_a6 (c : Dev nD) : W5 m ρ c (Proc.devRef .tc main_arg6) = m ((c.tc : Thread nD τ).loc main_arg6) := by
  show StableHlo.after hostOps2 (W4 m ρ c) (Proc.devRef .tc main_arg6) = _
  after_results <;> first | exact W4_a6 m ρ c | rfl
theorem W6_a1 (c : Dev nD) : W6 m ρ c (Proc.devRef .tc main_arg1) = m ((c.tc : Thread nD τ).loc main_arg1) := by
  show StableHlo.after hostOps2_1 (W5 m ρ c) (Proc.devRef .tc main_arg1) = _
  after_results <;> first | exact W5_a1 m ρ c | rfl
theorem W6_a2 (c : Dev nD) : W6 m ρ c (Proc.devRef .tc main_arg2) = m ((c.tc : Thread nD τ).loc main_arg2) := by
  show StableHlo.after hostOps2_1 (W5 m ρ c) (Proc.devRef .tc main_arg2) = _
  after_results <;> first | exact W5_a2 m ρ c | rfl
theorem W6_a6 (c : Dev nD) : W6 m ρ c (Proc.devRef .tc main_arg6) = m ((c.tc : Thread nD τ).loc main_arg6) := by
  show StableHlo.after hostOps2_1 (W5 m ρ c) (Proc.devRef .tc main_arg6) = _
  after_results <;> first | exact W5_a6 m ρ c | rfl
theorem W7_a1 (c : Dev nD) : W7 m ρ c (Proc.devRef .tc main_arg1) = m ((c.tc : Thread nD τ).loc main_arg1) :=
  (W7_of_ne m ρ c main_arg1 (by decide)).trans (W6_a1 m ρ c)
theorem W7_a6 (c : Dev nD) : W7 m ρ c (Proc.devRef .tc main_arg6) = m ((c.tc : Thread nD τ).loc main_arg6) :=
  (W7_of_ne m ρ c main_arg6 (by decide)).trans (W6_a6 m ρ c)
theorem W8_a1 (c : Dev nD) : W8 m ρ c (Proc.devRef .tc main_arg1) = m ((c.tc : Thread nD τ).loc main_arg1) := by
  show StableHlo.after hostOps3 (W7 m ρ c) (Proc.devRef .tc main_arg1) = _
  after_results <;> first | exact W7_a1 m ρ c | rfl

end Cert.KernelIdeal.Fold

end
-- ==== Proof.Fold.lean ====
/-
  The result array of the idealized program, read down to the launch memory.

  The program is five stretches of host operations with four launches between them. The contents of every buffer at
  each boundary are a fold from the launch memory: a host stretch rewrites the buffers its operations write and
  leaves the rest, a launch leaves its output array at its row-times-column product of the two arrays it reads and
  every other buffer as it found it. No operation and no launch writes an argument, so each argument read at a later
  boundary is still the launch memory's (ArgsKept.lean). Reading the fold one boundary at a time gives, in order: the projected
  features `x · W1`; their spectral image; the scaled image; the first layer's output; its clamp; the second
  projection; its spectral image; the scaled image; and the result, which is `net` of the seven arguments.
-/
import proofs.«171679_j13383118094871_1_alg».proof.Proof.Gen.KernelIdeal.Frame
import proofs.«171679_j13383118094871_1_alg».proof.Proof.Region0
import proofs.«171679_j13383118094871_1_alg».proof.Proof.Region1
import proofs.«171679_j13383118094871_1_alg».proof.Proof.Region2
import proofs.«171679_j13383118094871_1_alg».proof.Proof.Region3
import proofs.«171679_j13383118094871_1_alg».proof.Proof.Net
import proofs.«171679_j13383118094871_1_alg».proof.Proof.ArgsKept
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Idealize.ShloMosaic.Pipeline (Dat)
open Cert.KernelIdeal Cert.KernelIdeal.Gen Cert.Spec

variable (m : (ℓ : Loc nD τ sig) → Buf (Elt Ideal) ℓ) (ρ : Dev nD → PrngReg)

/-- The three broadcasts' shape relations, as the program states them. -/
theorem shapes : Bcasts := ⟨Facts₀.bcast_S8192_S8192x1_0, Facts₀.bcast_S8192x1_S8192x128_0_1, Facts₀.bcast_S_S8192x128⟩

/-- The host's projection by a 128 × 128 matrix is `rowsTimes`, at whatever precision it is asked for. -/
theorem projection (x : FVec Ideal SX .f32) (w : FVec Ideal SW .f32) (prec : Option ContractPrecision) :
    Host.dotGeneral dot_S8192x128_S128x128_S8192x128_1_0_0_1_n_n prec x w = rowsTimes x w :=
  hostProduct_eq x w prec .single

/-! ## The computed arrays, boundary by boundary -/

/-- After the first stretch: the projected features. -/
theorem W1_v0 (c : Dev nD) : W1 m ρ c (Proc.devRef .tc main_v0) = rowsTimes (m ((c.tc : Thread nD τ).loc main_arg0)) (m ((c.tc : Thread nD τ).loc main_arg3)) := by
  show StableHlo.after hostOps0 (W0 m ρ c) (Proc.devRef .tc main_v0) = _
  after_results
  exact projection _ _ _

/-- After the first launch: their spectral image. -/
theorem W2_v1 (c : Dev nD) : W2 m ρ c (Proc.devRef .tc main_v1)
    = rowsTimes (m ((c.tc : Thread nD τ).loc main_arg2)) (rowsTimes (m ((c.tc : Thread nD τ).loc main_arg0)) (m ((c.tc : Thread nD τ).loc main_arg3))) :=
  (W2_arr m ρ c 2).trans ((Region0.final (V1 m ρ) c).trans (congrArg₂ rowsTimes (W1_a2 m ρ c) (W1_v0 m ρ c)))

/-- After the second stretch: each spectral row scaled by its filter entry. -/
theorem W3_v4 (c : Dev nD) : W3 m ρ c (Proc.devRef .tc main_v4)
    = scaleRows shapes (m ((c.tc : Thread nD τ).loc main_arg4)) (rowsTimes (m ((c.tc : Thread nD τ).loc main_arg2)) (rowsTimes (m ((c.tc : Thread nD τ).loc main_arg0)) (m ((c.tc : Thread nD τ).loc main_arg3)))) := by
  show StableHlo.after hostOps1 (W2 m ρ c) (Proc.devRef .tc main_v4) = _
  after_results
  rw [W2_a4, W2_v1]
  rfl

/-- After the second launch: the first layer's output. -/
theorem W4_v5 (c : Dev nD) : W4 m ρ c (Proc.devRef .tc main_v5)
    = layer shapes (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg0)) :=
  (W4_arr m ρ c 2).trans ((Region1.final (V3 m ρ) c).trans (congrArg₂ rowsTimes (W3_a1 m ρ c) (W3_v4 m ρ c)))

/-- After the clamp. -/
theorem W5_v6 (c : Dev nD) : W5 m ρ c (Proc.devRef .tc main_v6)
    = clamp shapes (layer shapes (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg0))) := by
  show StableHlo.after hostOps2 (W4 m ρ c) (Proc.devRef .tc main_v6) = _
  after_results
  rw [W4_v5]
  rfl

/-- After the second projection. -/
theorem W6_v7 (c : Dev nD) : W6 m ρ c (Proc.devRef .tc main_v7)
    = rowsTimes (clamp shapes (layer shapes (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg0)))) (m ((c.tc : Thread nD τ).loc main_arg5)) := by
  have clamped := W5_v6 m ρ c
  have kept := W5_a5 m ρ c
  show StableHlo.after hostOps2_1 (W5 m ρ c) (Proc.devRef .tc main_v7) = _
  generalize W5 m ρ c = before at clamped kept ⊢
  after_results
  rw [clamped, kept]
  exact projection _ _ _

/-- After the third launch. -/
theorem W7_v8 (c : Dev nD) : W7 m ρ c (Proc.devRef .tc main_v8)
    = rowsTimes (m ((c.tc : Thread nD τ).loc main_arg2)) (rowsTimes (clamp shapes (layer shapes (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg0)))) (m ((c.tc : Thread nD τ).loc main_arg5))) :=
  (W7_arr m ρ c 2).trans ((Region2.final (V6 m ρ) c).trans (congrArg₂ rowsTimes (W6_a2 m ρ c) (W6_v7 m ρ c)))

/-- After the last stretch. -/
theorem W8_v11 (c : Dev nD) : W8 m ρ c (Proc.devRef .tc main_v11)
    = scaleRows shapes (m ((c.tc : Thread nD τ).loc main_arg6)) (rowsTimes (m ((c.tc : Thread nD τ).loc main_arg2)) (rowsTimes (clamp shapes (layer shapes (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg0)))) (m ((c.tc : Thread nD τ).loc main_arg5)))) := by
  show StableHlo.after hostOps3 (W7 m ρ c) (Proc.devRef .tc main_v11) = _
  after_results
  rw [W7_a6, W7_v8]
  rfl

/-- THE RESULT: after the last launch the result array is `net` of the seven arguments as launched. -/
theorem result (c : Dev nD) : W9 m ρ c (Proc.devRef .tc main_v12)
    = net shapes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (W9_arr m ρ c 2).trans ((Region3.final (V8 m ρ) c).trans (congrArg₂ rowsTimes (W8_a1 m ρ c) (W8_v11 m ρ c)))

end Cert.KernelIdeal.Fold

end
-- ==== Proof.RefValue.lean ====
/-
  The reference's result is `net` of its arguments.

  The reference is fifteen host operations: six matrix products, two row scalings of three operations each, and a
  clamp of three. Its generated run ends the result array at the operations' composed term of the launch arguments.
  Each of the six products carries the plain dimension numbers, so each is `rowsTimes`; what remains around them —
  the two row scalings and the clamp — is `net`'s own text.
-/
import proofs.«171679_j13383118094871_1_alg».proof.Proof.Gen.ReferenceIdeal.Run
import proofs.«171679_j13383118094871_1_alg».proof.Proof.Net

noncomputable section

namespace Cert.ReferenceIdeal.RefValue

open Idealize.ShloMosaic Cert.ReferenceIdeal Cert.ReferenceIdeal.Gen Cert.Spec

/-- The three broadcasts' shape relations, as the reference states them. -/
theorem shapes : Bcasts := ⟨Facts₀.bcast_S8192_S8192x1_0, Facts₀.bcast_S8192x1_S8192x128_0_1, Facts₀.bcast_S_S8192x128⟩

/-- A product by one of the 8192 × 8192 matrices. -/
theorem wide (a : FVec Ideal SA .f32) (x : FVec Ideal SX .f32) :
    Host.dotGeneral dot_S8192x8192_S8192x128_S8192x128_1_0_0_1_n_n none a x = rowsTimes a x :=
  hostProduct_eq a x none .single

/-- A projection by one of the 128 × 128 matrices. -/
theorem projection (x : FVec Ideal SX .f32) (w : FVec Ideal SW .f32) :
    Host.dotGeneral dot_S8192x128_S128x128_S8192x128_1_0_0_1_n_n none x w = rowsTimes x w :=
  hostProduct_eq x w none .single

/-- The run's composed term, over any seven arrays, is `net` of them. -/
theorem result_eq (x : FVec Ideal SX .f32) (wv wi : FVec Ideal SA .f32) (W1 : FVec Ideal SW .f32) (f1 : FVec Ideal SF .f32)
    (W2 : FVec Ideal SW .f32) (f2 : FVec Ideal SF .f32) :
    Host.dotGeneral dot_S8192x8192_S8192x128_S8192x128_1_0_0_1_n_n none wv (mulf (broadcastInDim S8192x128 ![0, 1] bcast_S8192x1_S8192x128_0_1 (broadcastInDim S8192x1 ![0] bcast_S8192_S8192x1_0 f2)) (Host.dotGeneral dot_S8192x8192_S8192x128_S8192x128_1_0_0_1_n_n none wi (Host.dotGeneral dot_S8192x128_S128x128_S8192x128_1_0_0_1_n_n none (maximumf (Host.dotGeneral dot_S8192x8192_S8192x128_S8192x128_1_0_0_1_n_n none wv (mulf (broadcastInDim S8192x128 ![0, 1] bcast_S8192x1_S8192x128_0_1 (broadcastInDim S8192x1 ![0] bcast_S8192_S8192x1_0 f1)) (Host.dotGeneral dot_S8192x8192_S8192x128_S8192x128_1_0_0_1_n_n none wi (Host.dotGeneral dot_S8192x128_S128x128_S8192x128_1_0_0_1_n_n none x W1)))) (broadcastInDim S8192x128 ![] bcast_S_S8192x128 (constant S_ .f32 0x00000000#32))) W2)))
      = net shapes x wv wi W1 f1 W2 f2 := by
  rw [projection x W1, wide wi, wide wv, projection _ W2, wide wi, wide wv]
  rfl

end Cert.ReferenceIdeal.RefValue

end
-- ==== Proof.lean ====
/-
  The kernel computes a two-layer graph wavelet network on 8192 nodes with 128 features:
      layer x = wv · (diag f · (wi · (x · W))),      out = layer₂ (max (layer₁ input, 0)),
  with `wv`, `wi` the 8192 × 8192 wavelet matrices, `W` a 128 × 128 projection and `f` a filter of 8192 entries.
  The four products by `wv` and `wi` are row-tiled launches on the matrix unit (256 rows a tile, the whole
  contraction of 8192 in one tile, narrowed to a 16-bit format first); the projections, the scalings and the clamp
  are host operations. The reference writes the same formula with host products throughout.

  Over the extended reals the narrowing is the identity and a tile's product is the matching row block of the full
  product, so both programs compute the same sums in the same grouping: no sum is regrouped, nothing is
  distributed, and no entry needs to be finite. The result of each is `net` of the seven arguments (Net.lean):
  the kernel's by reading its buffers' contents boundary by boundary through the launches (Fold.lean, over the
  per-launch arrays of Region0 … Region3.lean), the reference's by rewriting its run's term (RefValue.lean).
  The three frames are the generated ones; the ideal pass rewrote nothing, so the idealization claim is trivial.
-/
import proofs.«171679_j13383118094871_1_alg».proof.Defs
import proofs.«171679_j13383118094871_1_alg».proof.Proof.Gen.Kernel
import proofs.«171679_j13383118094871_1_alg».proof.Proof.Gen.Kernel.Frame
import proofs.«171679_j13383118094871_1_alg».proof.Proof.Gen.KernelIdeal
import proofs.«171679_j13383118094871_1_alg».proof.Proof.Gen.KernelIdeal.Frame
import proofs.«171679_j13383118094871_1_alg».proof.Proof.Gen.ReferenceIdeal
import proofs.«171679_j13383118094871_1_alg».proof.Proof.Gen.ReferenceIdeal.Run
import proofs.«171679_j13383118094871_1_alg».proof.Proof.Gen.Pre_finite_inputs
import proofs.«171679_j13383118094871_1_alg».proof.Proof.KernelRun
import proofs.«171679_j13383118094871_1_alg».proof.Proof.Fold
import proofs.«171679_j13383118094871_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference has no launch: its frame is its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result array at `net` of the arguments, which agree. -/
theorem algebraic : Cert.algebraic_KernelIdeal_ReferenceIdeal := by
  intro m ρ m' ρ' _ hagree
  refine ⟨fun c => Cert.Spec.net Cert.KernelIdeal.Fold.shapes
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.result m ρ c), (h c).2⟩)
      (Cert.KernelIdeal.Whole.run m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6⟩ := hagree c
    rw [e0, e1, e2, e3, e4, e5, e6]
    exact Cert.ReferenceIdeal.RefValue.result_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
